-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S4000x128 : Shape := ⟨2, ![4000, 128]⟩
abbrev S4000x64 : Shape := ⟨2, ![4000, 64]⟩
abbrev S1600000x64 : Shape := ⟨2, ![1600000, 64]⟩
abbrev S100000x1 : Shape := ⟨2, ![100000, 1]⟩
abbrev S1x64 : Shape := ⟨2, ![1, 64]⟩
abbrev S4000x1 : Shape := ⟨2, ![4000, 1]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩

abbrev nBuf : Space → Nat
  | .hbm => 80
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S100000x40, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x40, .f32⟩
  | .hbm, ⟨70, _⟩ => ⟨S1600000x1, .f32⟩
  | .hbm, ⟨71, _⟩ => ⟨S1600000x40, .f32⟩
  | .hbm, ⟨72, _⟩ => ⟨S1600000x40, .f32⟩
  | .hbm, ⟨73, _⟩ => ⟨S_, .f32⟩
  | .hbm, ⟨74, _⟩ => ⟨S100000x40, .f32⟩
  | .hbm, ⟨75, _⟩ => ⟨S1600000x1, .i32⟩
  | .hbm, ⟨76, _⟩ => ⟨S100000x40, .f32⟩
  | .hbm, ⟨77, _⟩ => ⟨S100000x1, .f32⟩
  | .hbm, ⟨78, _⟩ => ⟨S1x40, .f32⟩
  | .hbm, ⟨79, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x40, .f32⟩
  | .local _ .vmem, ⟨17, _⟩ => ⟨S4000x40, .f32⟩
  | .local _ .vmem, ⟨18, _⟩ => ⟨S4000x40, .f32⟩
  | .local _ .vmem, ⟨19, _⟩ => ⟨S4000x40, .f32⟩
  | .local _ .vmem, ⟨20, _⟩ => ⟨S4000x40, .f32⟩
  | .local _ .vmem, ⟨21, _⟩ => ⟨S4000x40, .f32⟩
  | .local _ .vmem, ⟨22, _⟩ => ⟨S4000x40, .f32⟩
  | .local _ .vmem, ⟨23, _⟩ => ⟨S4000x1, .f32⟩
  | .local _ .vmem, ⟨24, _⟩ => ⟨S4000x1, .f32⟩
  | .local _ .vmem, ⟨25, _⟩ => ⟨S1x40, .f32⟩
  | .local _ .vmem, ⟨26, _⟩ => ⟨S4000x40, .f32⟩
  | .local _ .vmem, ⟨27, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  inb_S4000x40_S4000x40_0_0 : ∀ a, (![0, 0] : Fin 2 → Nat) a + S4000x40.size a ≤ S4000x40.size a
  h_S4000x40 : 0 < S4000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  broadcasts_S4000x1_S4000x40 : S4000x1.Broadcasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  shapeCasts_S4000x40_S4000x40 : S4000x40.ShapeCasts S4000x40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x40_S4000x40_1_0_0_1_n_n_wf : DotDims.WF S4000x64 S64x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x40.size a ≤ S100000x40.size a
  hwx3_0 : ∀ i : grid3.Coords, EltTy.bits .f32 = 32 ∨ (Rect.block (s := S100000x40) S4000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x40.size a ≤ S100000x40.size a
  hwx3_1 : ∀ i : grid3.Coords, EltTy.bits .f32 = 32 ∨ (Rect.block (s := S100000x40) S4000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x40.size a ≤ S100000x40.size a
  hwx3_4 : ∀ i : grid3.Coords, EltTy.bits .f32 = 32 ∨ (Rect.block (s := S100000x40) S4000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S4000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S4000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x40, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x40, .f32⟩
  | .hbm, ⟨106, _⟩ => ⟨S1600000x1, .f32⟩
  | .hbm, ⟨107, _⟩ => ⟨S1600000x40, .f32⟩
  | .hbm, ⟨108, _⟩ => ⟨S1600000x40, .f32⟩
  | .hbm, ⟨109, _⟩ => ⟨S_, .f32⟩
  | .hbm, ⟨110, _⟩ => ⟨S100000x40, .f32⟩
  | .hbm, ⟨111, _⟩ => ⟨S1600000x1, .i32⟩
  | .hbm, ⟨112, _⟩ => ⟨S100000x40, .f32⟩
  | .hbm, ⟨113, _⟩ => ⟨S100000, .f32⟩
  | .hbm, ⟨114, _⟩ => ⟨S100000x1, .f32⟩
  | .hbm, ⟨115, _⟩ => ⟨S100000x40, .f32⟩
  | .hbm, ⟨116, _⟩ => ⟨S100000x40, .f32⟩
  | .hbm, ⟨117, _⟩ => ⟨S100000x40, .f32⟩
  | .hbm, ⟨118, _⟩ => ⟨S1x40, .f32⟩
  | .hbm, ⟨119, _⟩ => ⟨S100000x40, .f32⟩
  | .hbm, ⟨120, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The network both programs compute, as whole-array functions of the inputs, on the extended reals.

  A two-layer graph convolution over N = 100000 nodes and E = 1600000 directed edges. With src and dst the two rows
  of the edge list, deg(i) = 1 + #{e : dst e = i} and dinv = deg^(-1/2), one layer sends node features h to

      out(i, ·) = Σ_{e : dst e = i} dinv(src e) · dinv(dst e) · h(src e, ·)  +  dinv(i)² · h(i, ·)  +  b,

  where h = x · W is the dense product. The first layer (128 → 64 features) is followed by max(·, 0), the second
  (64 → 40) is not. A node id below zero counts from the end, as the source's array indexing has it (`wrap`); what an id outside
  the table reads or where it lands is whatever the host's gather and scatter-add do with it, the same on both sides,
  so these two stay opaque here.
-/
import proofs.«131553_j5342939316803_1_alg».proof.Proof.Gen.ReferenceIdeal
import Idealize.ShloMosaic.PureOps.Ideal

noncomputable section

namespace Cert.Gcn

open Cert.ReferenceIdeal Cert.ReferenceIdeal.Gen Idealize.ShloMosaic

/-- The edge list: row 0 the source node of each edge, row 1 its destination. -/
abbrev Edges : Type := (⟨S2x1600000, .i32⟩ : BufTy).Contents (Elt Ideal)
/-- One node id per edge. -/
abbrev EdgeIds : Type := (⟨S1600000, .i32⟩ : BufTy).Contents (Elt Ideal)

/-- Each edge's source node: row 0 of the edge list. -/
def src (ei : Edges) : EdgeIds :=
  shapeCast _ (extractStridedSlice S1x1600000 ![0, 0] ei slices_S2x1600000_S1x1600000_0_0) shapeCasts_S1x1600000_S1600000

/-- Each edge's destination node: row 1 of the edge list. -/
def dst (ei : Edges) : EdgeIds :=
  shapeCast _ (extractStridedSlice S1x1600000 ![1, 0] ei slices_S2x1600000_S1x1600000_1_0) shapeCasts_S1x1600000_S1600000

/-- A node id below zero counts from the end: id + N when id < 0, else id. -/
def wrap (i : EdgeIds) : EdgeIds :=
  select (cmpi .slt i (broadcastInDim S1600000 ![] bcast_S_S1600000 (constantI S_ 32 0#32)))
    (addi i (broadcastInDim S1600000 ![] bcast_S_S1600000 (constantI S_ 32 100000#32))) i

/-- deg^(-1/2) per node, deg the number of edges landing on the node plus one for its self loop. -/
def dinv (ei : Edges) : FVec Ideal S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dst ei))
      (broadcastInDim S1600000 ![] bcast_S_S1600000 (constant S_ .f32 0x3F800000#32)))
    (broadcastInDim S100000 ![] bcast_S_S100000 (constant S_ .f32 0x3F800000#32)))

/-- The weight of each edge: dinv at its source times dinv at its destination. -/
def norm (ei : Edges) : FVec Ideal S1600000 .f32 :=
  mulf
    (Host.gather gather_S100000_S1600000x1_S1600000_n_0_n_n_0_1_1 (dinv ei)
      (broadcastInDim S1600000x1 ![0] bcast_S1600000_S1600000x1_0 (wrap (src ei))))
    (Host.gather gather_S100000_S1600000x1_S1600000_n_0_n_n_0_1_1 (dinv ei)
      (broadcastInDim S1600000x1 ![0] bcast_S1600000_S1600000x1_0 (wrap (dst ei))))

/-- The weight of each node's self loop: dinv². -/
def selfScale (ei : Edges) : FVec Ideal S100000 .f32 := mulf (dinv ei) (dinv ei)

/-- A per-node vector as a one-column array. -/
def col (v : FVec Ideal S100000 .f32) : FVec Ideal S100000x1 .f32 :=
  broadcastInDim S100000x1 ![0] bcast_S100000_S100000x1_0 v

/-! ## The layer of 64 features -/

/-- The dense product x · W, [N, 128] by [128, 64]. -/
def dense64 (x : FVec Ideal S100000x128 .f32) (w : FVec Ideal S128x64 .f32) : FVec Ideal S100000x64 .f32 :=
  Host.dotGeneral dot_S100000x128_S128x64_S100000x64_1_0_0_1_n_n none x w

/-- Row i of the result: the sum over the edges e landing on i of norm(e) · h(src e, ·). -/
def aggregate64 (ei : Edges) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst ei))
    (mulf
      (Host.gather gather_S100000x64_S1600000x1_S1600000x64_1_0_n_n_0_1_164 h
        (broadcastInDim S1600000x1 ![0] bcast_S1600000_S1600000x1_0 (wrap (src ei))))
      (broadcastInDim S1600000x64 ![0, 1] bcast_S1600000x1_S1600000x64_0_1
        (broadcastInDim S1600000x1 ![0] bcast_S1600000_S1600000x1_0 (norm ei))))

/-- A bias of 64 entries as a one-row array. -/
def row64 (b : FVec Ideal S64 .f32) : FVec Ideal S1x64 .f32 := broadcastInDim S1x64 ![1] bcast_S64_S1x64_1 b

/-- (agg + h · s) + b, the column s repeated along the features and the row b down the nodes. -/
def combine64 (agg h : FVec Ideal S100000x64 .f32) (s : FVec Ideal S100000x1 .f32) (b : FVec Ideal S1x64 .f32) :
    FVec Ideal S100000x64 .f32 :=
  addf (addf agg (mulf h (broadcastInDim S100000x64 ![0, 1] bcast_S100000x1_S100000x64_0_1 s)))
    (broadcastInDim S100000x64 ![0, 1] bcast_S1x64_S100000x64_0_1 b)

/-- max(·, 0), entry by entry. -/
def relu64 (v : FVec Ideal S100000x64 .f32) : FVec Ideal S100000x64 .f32 :=
  maximumf v (broadcastInDim S100000x64 ![] bcast_S_S100000x64 (constant S_ .f32 0x00000000#32))

/-- The first layer: max(agg(x·W₁) + dinv² · (x·W₁) + b₁, 0). -/
def layer1 (ei : Edges) (x : FVec Ideal S100000x128 .f32) (w1 : FVec Ideal S128x64 .f32) (b1 : FVec Ideal S64 .f32) :
    FVec Ideal S100000x64 .f32 :=
  relu64 (combine64 (aggregate64 ei (dense64 x w1)) (dense64 x w1) (col (selfScale ei)) (row64 b1))

/-! ## The layer of 40 features -/

/-- The dense product h · W, [N, 64] by [64, 40]. -/
def dense40 (h : FVec Ideal S100000x64 .f32) (w : FVec Ideal S64x40 .f32) : FVec Ideal S100000x40 .f32 :=
  Host.dotGeneral dot_S100000x64_S64x40_S100000x40_1_0_0_1_n_n none h w

/-- Row i of the result: the sum over the edges e landing on i of norm(e) · h(src e, ·). -/
def aggregate40 (ei : Edges) (h : FVec Ideal S100000x40 .f32) : FVec Ideal S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 (dst ei))
    (mulf
      (Host.gather gather_S100000x40_S1600000x1_S1600000x40_1_0_n_n_0_1_140 h
        (broadcastInDim S1600000x1 ![0] bcast_S1600000_S1600000x1_0 (wrap (src ei))))
      (broadcastInDim S1600000x40 ![0, 1] bcast_S1600000x1_S1600000x40_0_1
        (broadcastInDim S1600000x1 ![0] bcast_S1600000_S1600000x1_0 (norm ei))))

/-- A bias of 40 entries as a one-row array. -/
def row40 (b : FVec Ideal S40 .f32) : FVec Ideal S1x40 .f32 := broadcastInDim S1x40 ![1] bcast_S40_S1x40_1 b

/-- (agg + h · s) + b, the column s repeated along the features and the row b down the nodes. -/
def combine40 (agg h : FVec Ideal S100000x40 .f32) (s : FVec Ideal S100000x1 .f32) (b : FVec Ideal S1x40 .f32) :
    FVec Ideal S100000x40 .f32 :=
  addf (addf agg (mulf h (broadcastInDim S100000x40 ![0, 1] bcast_S100000x1_S100000x40_0_1 s)))
    (broadcastInDim S100000x40 ![0, 1] bcast_S1x40_S100000x40_0_1 b)

/-- The whole network: the second layer, without the maximum, over the first. -/
def network (ei : Edges) (x : FVec Ideal S100000x128 .f32) (w1 : FVec Ideal S128x64 .f32) (b1 : FVec Ideal S64 .f32)
    (w2 : FVec Ideal S64x40 .f32) (b2 : FVec Ideal S40 .f32) : FVec Ideal S100000x40 .f32 :=
  combine40 (aggregate40 ei (dense40 (layer1 ei x w1 b1) w2)) (dense40 (layer1 ei x w1 b1) w2)
    (col (selfScale ei)) (row40 b2)

end Cert.Gcn

end
-- ==== Proof.LibLayoutVsHost.lean ====
/-
  A kernel's layout operations against the host's, as whole arrays, for any element type and any extents:

  * `shapeCast_col_eq`  — a vector of n entries recast as a column [n, 1] is the host's broadcast of it along axis 0;
  * `shapeCast_row_eq`  — the vector recast as a row [1, n] is the host's broadcast of it along axis 1;
  * `broadcastTo_oneRow_eq` — a row [1, n] repeated down m rows is the host's broadcast of it along both axes;
  * `broadcastTo_oneCol_eq` — a column [m, 1] repeated along n columns is the host's broadcast of it along both axes.

  Each side reads the operand at the same entry: the coordinate along the operand's long axis, 0 along its unit axis.
-/
import Idealize.ShloMosaic.Lib.Pipeline.Value
import Idealize.ShloMosaic.Lib.ValueIdx
import Idealize.ShloMosaic.Lib.ValueLayout
import Idealize.ShloMosaic.Lib.KernelVsHost

namespace Cert.LibLayout

open Idealize.ShloMosaic Idealize.ShloMosaic.ValueIdx

variable {α : Type}

/-- A vector recast as a column is its broadcast along axis 0: both read, at (p, 0), the vector at p. -/
theorem shapeCast_col_eq {n : ℕ} (x : (⟨1, ![n]⟩ : Shape).Idx → α) (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have hu : (i 1).val < 1 := (i 1).isLt
  have e2 := shapeCast_apply x h i (ix1 (i 0 : Fin n)) (by
    rw [Shape.rowMajor_val_one, Shape.rowMajor_val_two]; show (i 0).val = (i 0).val * 1 + (i 1).val; omega)
  have e3 := broadcastInDim_apply ![0] hd x i (ix1 (i 0 : Fin n)) (by
    intro a
    match a with
    | ⟨0, _⟩ =>
      show (i 0).val = if n = 1 then 0 else (i 0).val
      split
      · have := (i 0).isLt; have e : (i 0).val < n := this; omega
      · rfl)
  exact e2.trans e3.symm

/-- A vector recast as a row is its broadcast along axis 1: both read, at (0, q), the vector at q. -/
theorem shapeCast_row_eq {n : ℕ} (x : (⟨1, ![n]⟩ : Shape).Idx → α) (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have hu : (i 0).val < 1 := (i 0).isLt
  have e2 := shapeCast_apply x h i (ix1 (i 1 : Fin n)) (by
    rw [Shape.rowMajor_val_one, Shape.rowMajor_val_two]; show (i 1).val = (i 0).val * n + (i 1).val
    have h0 : (i 0).val = 0 := by omega
    rw [h0, Nat.zero_mul, Nat.zero_add])
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

/-- A row repeated down m rows: the kernel's broadcast and the host's along both axes read the row at (0, t). -/
theorem broadcastTo_oneRow_eq {m n : ℕ} (y : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  rw [broadcastTo_1b_ab_apply, broadcastInDim_oneRow_apply]

/-- A column repeated along n columns: the kernel's broadcast and the host's along both axes read the column at (r, 0). -/
theorem broadcastTo_oneCol_eq {m n : ℕ} (y : (⟨2, ![m, 1]⟩ : Shape).Idx → α)
    (hb : (⟨2, ![m, 1]⟩ : Shape).Broadcasts ⟨2, ![m, n]⟩)
    (hd : (⟨2, ![m, 1]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  have e1 := broadcastTo_apply y hb (ix2 r t) (ix2 r (0 : Fin 1)) (by
    intro a
    match a with
    | ⟨0, _⟩ =>
      show r.val = if m = 1 then 0 else r.val
      split
      · have := r.isLt; omega
      · rfl
    | ⟨1, _⟩ => rfl)
  have e3 := broadcastInDim_apply ![0, 1] hd y (ix2 r t) (ix2 r (0 : Fin 1)) (by
    intro a
    match a with
    | ⟨0, _⟩ =>
      show r.val = if m = 1 then 0 else r.val
      split
      · have := r.isLt; omega
      · rfl
    | ⟨1, _⟩ => rfl)
  exact e1.trans e3.symm

end Cert.LibLayout
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  General lemmas for reading a host program's operations at an index, at the ideal instance.

  * `hostDotGeneral_plain_apply`: the host's product of an [M, K] operand with a [K, N] operand, read at (p, j), is the
    sum over k of lhs (p, k) · rhs (k, j), for any record of dimension numbers whose four axis facts are given (the
    host's product is the kernel's product into a zero accumulator).
  * `hostReduceAdd_rows_apply`: the host's sum of an [R, K] array along its last axis, read at row r, is the initial
    value plus the sum over k of the array at (r, k).
  * `broadcastInDim_vec_row_apply`: a vector of n entries laid out as the one row of a [1, n] array reads, at (u, k),
    the vector at k.
  * `broadcastInDim_vec_col_apply`: a vector of n entries laid out as the one column of an [n, 1] array reads, at
    (r, u), the vector at r.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«131553_j5342939316803_1_alg».proof.Proof.LibPlainDot

noncomputable section

namespace Cert.LibHostRead

open Idealize.ShloMosaic Idealize.ShloMosaic.ValueIdx

/-- The host's plain two-operand matrix product read at (p, j): ∑ₖ lhs (p, k) · rhs (k, j). -/
theorem hostDotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- The host's row-wise sum of an [R, K] array read at row r: the initial value plus ∑ₖ x (r, k). -/
theorem hostReduceAdd_rows_apply {R K : ℕ} {φ : FTy} (x : FVec Ideal ⟨2, ![R, K]⟩ φ) (init : (⟨0, ![]⟩ : Shape).Idx → Ideal φ)
    (h' : (⟨2, ![R, K]⟩ : Shape).ReducesTo [1] ⟨1, ![R]⟩) (hu : 0 < (⟨0, ![]⟩ : Shape).numel)
    (h : (⟨2, ![R, K]⟩ : Shape).Reduces [1] ⟨1, ![R]⟩) (r : Fin R) :
    Host.reduceAdd x init h' hu (ix1 r) = init ix0 + ∑ k : Fin K, x (ix2 r k) := by
  rw [hostReduceAdd_apply]
  refine (Ideal.hostReduceAdd_single h' h x _ (ix1 r)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

variable {α : Type}

/-- A vector laid out as the one row of a [1, n] array reads, at (u, k), the vector at k. -/
theorem broadcastInDim_vec_row_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun a => ?_
  match a with
  | ⟨0, _⟩ =>
    show k.val = if n = 1 then 0 else k.val
    split
    · have := k.isLt; omega
    · rfl

/-- A vector laid out as the one column of an [n, 1] array reads, at (r, u), the vector at r. -/
theorem broadcastInDim_vec_col_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

end Cert.LibHostRead

end
-- ==== Proof.DenseRegions.lean ====
/-
  The two dense products of the network, from blocks to the whole array.

  Each product A · W of an [N, K] array with a [K, M] array, N = 100000, is computed in 25 steps: step t multiplies
  rows 4000·t … 4000·t + 3999 of A, all K columns, by the whole of W, and writes rows 4000·t … 4000·t + 3999 of the
  result. Entry (r, j) of what step t writes is Σₖ A(4000·t + r, k) · W(k, j), which is entry (4000·t + r, j) of the
  whole product (the casts to the narrower format in front of the product are the identity on the extended reals).
  The 25 row blocks tile the result array, row i lying in block i / 4000, so after the last step the array is A · W.
  Once for x · W₁ (K = 128, M = 64) and once for h · W₂ (K = 64, M = 40).
-/
import proofs.«131553_j5342939316803_1_alg».proof.Proof.Gen.KernelIdeal.Frame
import proofs.«131553_j5342939316803_1_alg».proof.Proof.Spec
import proofs.«131553_j5342939316803_1_alg».proof.Proof.LibPlainDot
import proofs.«131553_j5342939316803_1_alg».proof.Proof.LibHostRead
import Idealize.ShloMosaic.Lib.ValueIdx
import Idealize.ShloMosaic.Lib.Pipeline.Value

set_option maxRecDepth 16384

noncomputable section

namespace Cert.Gcn

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The dimension numbers of the four products, axis by axis

Each record contracts the left operand's axis 1 with the right operand's axis 0; a row of the result comes from the left
operand's axis 0 and a column from the right operand's axis 1. -/

theorem denseBlockDot64_lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem denseBlockDot64_lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem denseBlockDot64_rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem denseBlockDot64_rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

theorem denseWholeDot64_lhs_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem denseWholeDot64_lhs_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem denseWholeDot64_rhs_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem denseWholeDot64_rhs_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

theorem denseBlockDot40_lhs_0 (i : S4000x40.Idx) (q : dot_S4000x64_S64x40_S4000x40_1_0_0_1_n_n.contr.Idx) :
    (dot_S4000x64_S64x40_S4000x40_1_0_0_1_n_n.lhsIdx i q 0).val = (i 0).val := by
  unfold DotDims.lhsIdx
  rw [dif_neg (show ¬(0 : Fin S4000x64.rank) ∈ dot_S4000x64_S64x40_S4000x40_1_0_0_1_n_n.lhsBatch by decide), dif_pos (show (0 : Fin S4000x64.rank) ∈ dot_S4000x64_S64x40_S4000x40_1_0_0_1_n_n.lhsNonContracting by decide)]
  rfl
theorem denseBlockDot40_lhs_1 (i : S4000x40.Idx) (q : dot_S4000x64_S64x40_S4000x40_1_0_0_1_n_n.contr.Idx) :
    (dot_S4000x64_S64x40_S4000x40_1_0_0_1_n_n.lhsIdx i q 1).val = (q ⟨0, by decide⟩).val :=
  dot_S4000x64_S64x40_S4000x40_1_0_0_1_n_n.lhsIdx_val_of_single rfl i q
theorem denseBlockDot40_rhs_0 (i : S4000x40.Idx) (q : dot_S4000x64_S64x40_S4000x40_1_0_0_1_n_n.contr.Idx) :
    (dot_S4000x64_S64x40_S4000x40_1_0_0_1_n_n.rhsIdx i q 0).val = (q ⟨0, by decide⟩).val :=
  dot_S4000x64_S64x40_S4000x40_1_0_0_1_n_n.rhsIdx_val_of_single rfl i q
theorem denseBlockDot40_rhs_1 (i : S4000x40.Idx) (q : dot_S4000x64_S64x40_S4000x40_1_0_0_1_n_n.contr.Idx) :
    (dot_S4000x64_S64x40_S4000x40_1_0_0_1_n_n.rhsIdx i q 1).val = (i 1).val := by
  unfold DotDims.rhsIdx
  rw [dif_neg (show ¬(1 : Fin S64x40.rank) ∈ dot_S4000x64_S64x40_S4000x40_1_0_0_1_n_n.rhsBatch by decide), dif_pos (show (1 : Fin S64x40.rank) ∈ dot_S4000x64_S64x40_S4000x40_1_0_0_1_n_n.rhsNonContracting by decide)]
  rfl

theorem denseWholeDot40_lhs_0 (i : S100000x40.Idx) (q : Cert.ReferenceIdeal.dot_S100000x64_S64x40_S100000x40_1_0_0_1_n_n.contr.Idx) :
    (Cert.ReferenceIdeal.dot_S100000x64_S64x40_S100000x40_1_0_0_1_n_n.lhsIdx i q 0).val = (i 0).val := by
  unfold DotDims.lhsIdx
  rw [dif_neg (show ¬(0 : Fin S100000x64.rank) ∈ Cert.ReferenceIdeal.dot_S100000x64_S64x40_S100000x40_1_0_0_1_n_n.lhsBatch by decide), dif_pos (show (0 : Fin S100000x64.rank) ∈ Cert.ReferenceIdeal.dot_S100000x64_S64x40_S100000x40_1_0_0_1_n_n.lhsNonContracting by decide)]
  rfl
theorem denseWholeDot40_lhs_1 (i : S100000x40.Idx) (q : Cert.ReferenceIdeal.dot_S100000x64_S64x40_S100000x40_1_0_0_1_n_n.contr.Idx) :
    (Cert.ReferenceIdeal.dot_S100000x64_S64x40_S100000x40_1_0_0_1_n_n.lhsIdx i q 1).val = (q ⟨0, by decide⟩).val :=
  Cert.ReferenceIdeal.dot_S100000x64_S64x40_S100000x40_1_0_0_1_n_n.lhsIdx_val_of_single rfl i q
theorem denseWholeDot40_rhs_0 (i : S100000x40.Idx) (q : Cert.ReferenceIdeal.dot_S100000x64_S64x40_S100000x40_1_0_0_1_n_n.contr.Idx) :
    (Cert.ReferenceIdeal.dot_S100000x64_S64x40_S100000x40_1_0_0_1_n_n.rhsIdx i q 0).val = (q ⟨0, by decide⟩).val :=
  Cert.ReferenceIdeal.dot_S100000x64_S64x40_S100000x40_1_0_0_1_n_n.rhsIdx_val_of_single rfl i q
theorem denseWholeDot40_rhs_1 (i : S100000x40.Idx) (q : Cert.ReferenceIdeal.dot_S100000x64_S64x40_S100000x40_1_0_0_1_n_n.contr.Idx) :
    (Cert.ReferenceIdeal.dot_S100000x64_S64x40_S100000x40_1_0_0_1_n_n.rhsIdx i q 1).val = (i 1).val := by
  unfold DotDims.rhsIdx
  rw [dif_neg (show ¬(1 : Fin S64x40.rank) ∈ Cert.ReferenceIdeal.dot_S100000x64_S64x40_S100000x40_1_0_0_1_n_n.rhsBatch by decide), dif_pos (show (1 : Fin S64x40.rank) ∈ Cert.ReferenceIdeal.dot_S100000x64_S64x40_S100000x40_1_0_0_1_n_n.rhsNonContracting by decide)]
  rfl

/-- The block offsets of a load or store of a whole staging buffer are all zero. -/
theorem denseZeroOffsets : (![0, 0] : Fin 2 → Nat) = fun _ => 0 := funext fun a => by fin_cases a <;> rfl

/-! ## The layer of 64 features: x · W₁ -/

/-- Entry (r, q) of what one grid point computes from its block of 4000 rows of x and the whole of W: the casts are the
    identity on the extended reals, and the product into the zero accumulator is the sum over the 128 shared indices. -/
theorem blockDense64_apply (x0 : Vec Ideal S4000x128 .f32) (w : Vec Ideal S128x64 .f32) (r : Fin 4000) (q : Fin 64) :
    k0_pay1 x0 w (ix2 r q) = ∑ k : Fin 128, x0 (ix2 r k) * w (ix2 k q) := by
  unfold k0_pay1
  exact Cert.Lib.matmul_plain_apply dot_S4000x128_S128x64_S4000x64_1_0_0_1_n_n rfl rfl
    denseBlockDot64_lhs_0 denseBlockDot64_lhs_1 denseBlockDot64_rhs_0 denseBlockDot64_rhs_1 none _ _ r q

/-- Entry (p, q) of the whole product: the same sum over the 128 shared indices. -/
theorem dense64_apply (x : FVec Ideal S100000x128 .f32) (w : FVec Ideal S128x64 .f32) (p : Fin 100000) (q : Fin 64) :
    dense64 x w (ix2 p q) = ∑ k : Fin 128, x (ix2 p k) * w (ix2 k q) := by
  unfold dense64
  exact Cert.LibHostRead.hostDotGeneral_plain_apply Cert.ReferenceIdeal.dot_S100000x128_S128x64_S100000x64_1_0_0_1_n_n rfl rfl
    denseWholeDot64_lhs_0 denseWholeDot64_lhs_1 denseWholeDot64_rhs_0 denseWholeDot64_rhs_1 none x w p q

/-- The index maps of the first product, decided over the 25 grid points: the block of x and the block of the result
    are row block t, all columns; W is taken whole at every point. -/
theorem denseRowBlocks64 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of point t's block of x is entry (4000·t + r, k) of x. -/
theorem denseLeftBlock64_apply (c : Dev nD) (t : Fin cfg0.N) (r : Fin 4000) (k : Fin 128) (h : t.val * 4000 + r.val < 100000) :
    iblk0 V c 0 t (ix2 r k) = (V c main_arg0 : S100000x128.Idx → EReal) (ix2 ⟨t.val * 4000 + r.val, h⟩ k) := by
  obtain ⟨e0, e1, -⟩ := denseRowBlocks64 t
  unfold iblk0
  rw [View.read_apply]
  show V c main_arg0 _ = V c main_arg0 _
  congr 1
  funext a
  apply Fin.ext
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

/-- Point t's block of W is W. -/
theorem denseRightBlock64_apply (c : Dev nD) (t : Fin cfg0.N) (k : Fin 128) (q : Fin 64) :
    iblk0 V c 1 t (ix2 k q) = (V c main_arg2 : S128x64.Idx → EReal) (ix2 k q) := by
  obtain ⟨-, -, e2, e3, -⟩ := denseRowBlocks64 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry (r, q) of point t's block of the result array sits at (4000·t + r, q). -/
theorem denseOutBlock64_emb (t : Fin cfg0.N) (r : Fin 4000) (q : Fin 64) (h : t.val * 4000 + r.val < 100000) :
    ((cfg0.win 2).blk t).view.emb (ix2 r q) = (ix2 ⟨t.val * 4000 + r.val, h⟩ q : S100000x64.Idx) := by
  obtain ⟨-, -, -, -, e4, e5⟩ := denseRowBlocks64 t
  funext a
  apply Fin.ext
  match a with
  | ⟨0, _⟩ => show win0_2.index t (0 : Fin 2) * 4000 + 1 * r.val = t.val * 4000 + r.val; rw [e4]; omega
  | ⟨1, _⟩ => show win0_2.index t (1 : Fin 2) * 64 + 1 * q.val = q.val; rw [e5]; omega

/-- What point t writes back is block t of the whole product x · W. -/
theorem dense64_flushed (c : Dev nD) (t : Fin cfg0.N) :
    (dat0 V c).flushed 2 t = ((cfg0.win 2).blk t).view.read (Elt Ideal) (dense64 (V c main_arg0) (V c main_arg2)) := by
  show (cfg0.win 2).cut (grid0.coords t) ((dat0 V c).after 2 t) = _
  rw [after0_2]
  unfold out0_2
  rw [View.canon_unit_zero denseZeroOffsets]
  simp only [View.ld_unit_zero (S := S4000x128) denseZeroOffsets, View.ld_unit_zero (S := S128x64) denseZeroOffsets]
  funext j
  obtain ⟨r, q, rfl⟩ : ∃ (r : Fin 4000) (q : Fin 64), j = ix2 r q := ⟨j 0, j 1, eq_ix2 j⟩
  have ht : t.val < 25 := lt_of_lt_of_eq t.isLt N_0
  have h : t.val * 4000 + r.val < 100000 := by have := r.isLt; omega
  show k0_pay1 (iblk0 V c 0 t) (iblk0 V c 1 t) (ix2 r q)
    = dense64 (V c main_arg0) (V c main_arg2) (((cfg0.win 2).blk t).view.emb (ix2 r q))
  rw [denseOutBlock64_emb t r q h]
  refine (blockDense64_apply _ _ r q).trans ?_
  refine ((dense64_apply _ _ ⟨t.val * 4000 + r.val, h⟩ q).trans ?_).symm
  refine Finset.sum_congr rfl fun k _ => ?_
  rw [denseLeftBlock64_apply V c t r k h, denseRightBlock64_apply V c t k q]

/-- An index of the result array is in point t's block iff each coordinate is in the block's range on its axis. -/
theorem mem_denseOutBlock64 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v27).slice (win0_2.rect t)).set ↔ _
  rw [View.set_slice_whole, Rect.mem_set_unit]
  exact Iff.rfl

/-- Every index of the result array is in the block of some point, and every point writes back: row i lies in row
    block i / 4000. -/
theorem denseOutBlocks64_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, e4, e5⟩ := denseRowBlocks64 t
  refine ⟨t, flush0_2 t, ?_⟩
  rw [mem_denseOutBlock64]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- After region 0 its output array is the whole dense product of its two input arrays. -/
theorem dense64_region (c : Dev nD) : (dat0 V c).arrAt 2 cfg0.N = dense64 (V c main_arg0) (V c main_arg2) :=
  (dat0 V c).arrAt_eq_of_cover 2 (dense64 (V c main_arg0) (V c main_arg2)) (fun t _ => dense64_flushed V c t)
    denseOutBlocks64_cover

/-! ## The layer of 40 features: h · W₂ -/

/-- Entry (r, q) of what one grid point computes from its block of 4000 rows of h and the whole of W: the recast to the
    block's own shape and the casts are the identity, and the product into the zero accumulator is the sum over the 64
    shared indices. -/
theorem blockDense40_apply (x0 : Vec Ideal S4000x64 .f32) (w : Vec Ideal S64x40 .f32) (r : Fin 4000) (q : Fin 40) :
    k2_pay1 x0 w (ix2 r q) = ∑ k : Fin 64, x0 (ix2 r k) * w (ix2 k q) := by
  unfold k2_pay1
  simp only [shapeCast_self]
  exact Cert.Lib.matmul_plain_apply dot_S4000x64_S64x40_S4000x40_1_0_0_1_n_n rfl rfl
    denseBlockDot40_lhs_0 denseBlockDot40_lhs_1 denseBlockDot40_rhs_0 denseBlockDot40_rhs_1 none _ _ r q

/-- Entry (p, q) of the whole product: the same sum over the 64 shared indices. -/
theorem dense40_apply (x : FVec Ideal S100000x64 .f32) (w : FVec Ideal S64x40 .f32) (p : Fin 100000) (q : Fin 40) :
    dense40 x w (ix2 p q) = ∑ k : Fin 64, x (ix2 p k) * w (ix2 k q) := by
  unfold dense40
  exact Cert.LibHostRead.hostDotGeneral_plain_apply Cert.ReferenceIdeal.dot_S100000x64_S64x40_S100000x40_1_0_0_1_n_n rfl rfl
    denseWholeDot40_lhs_0 denseWholeDot40_lhs_1 denseWholeDot40_rhs_0 denseWholeDot40_rhs_1 none x w p q

/-- The index maps of the second product, decided over the 25 grid points: the block of h and the block of the result
    are row block t, all columns; W is taken whole at every point. -/
theorem denseRowBlocks40 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (r, k) of point t's block of h is entry (4000·t + r, k) of h. -/
theorem denseLeftBlock40_apply (c : Dev nD) (t : Fin cfg2.N) (r : Fin 4000) (k : Fin 64) (h : t.val * 4000 + r.val < 100000) :
    iblk2 V c 0 t (ix2 r k) = (V c main_v43 : S100000x64.Idx → EReal) (ix2 ⟨t.val * 4000 + r.val, h⟩ k) := by
  obtain ⟨e0, e1, -⟩ := denseRowBlocks40 t
  unfold iblk2
  rw [View.read_apply]
  show V c main_v43 _ = V c main_v43 _
  congr 1
  funext a
  apply Fin.ext
  match a with
  | ⟨0, _⟩ => show win2_0.index t (0 : Fin 2) * 4000 + 1 * r.val = t.val * 4000 + r.val; rw [e0]; omega
  | ⟨1, _⟩ => show win2_0.index t (1 : Fin 2) * 64 + 1 * k.val = k.val; rw [e1]; omega

/-- Point t's block of W is W. -/
theorem denseRightBlock40_apply (c : Dev nD) (t : Fin cfg2.N) (k : Fin 64) (q : Fin 40) :
    iblk2 V c 1 t (ix2 k q) = (V c main_arg4 : S64x40.Idx → EReal) (ix2 k q) := by
  obtain ⟨-, -, e2, e3, -⟩ := denseRowBlocks40 t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 40 + 1 * q.val = q.val; rw [e3]; omega

/-- Entry (r, q) of point t's block of the result array sits at (4000·t + r, q). -/
theorem denseOutBlock40_emb (t : Fin cfg2.N) (r : Fin 4000) (q : Fin 40) (h : t.val * 4000 + r.val < 100000) :
    ((cfg2.win 2).blk t).view.emb (ix2 r q) = (ix2 ⟨t.val * 4000 + r.val, h⟩ q : S100000x40.Idx) := by
  obtain ⟨-, -, -, -, e4, e5⟩ := denseRowBlocks40 t
  funext a
  apply Fin.ext
  match a with
  | ⟨0, _⟩ => show win2_2.index t (0 : Fin 2) * 4000 + 1 * r.val = t.val * 4000 + r.val; rw [e4]; omega
  | ⟨1, _⟩ => show win2_2.index t (1 : Fin 2) * 40 + 1 * q.val = q.val; rw [e5]; omega

/-- What point t writes back is block t of the whole product h · W. -/
theorem dense40_flushed (c : Dev nD) (t : Fin cfg2.N) :
    (dat2 V c).flushed 2 t = ((cfg2.win 2).blk t).view.read (Elt Ideal) (dense40 (V c main_v43) (V c main_arg4)) := by
  show (cfg2.win 2).cut (grid2.coords t) ((dat2 V c).after 2 t) = _
  rw [after2_2]
  unfold out2_2
  rw [View.canon_unit_zero denseZeroOffsets]
  simp only [View.ld_unit_zero (S := S4000x64) denseZeroOffsets, View.ld_unit_zero (S := S64x40) denseZeroOffsets]
  funext j
  obtain ⟨r, q, rfl⟩ : ∃ (r : Fin 4000) (q : Fin 40), j = ix2 r q := ⟨j 0, j 1, eq_ix2 j⟩
  have ht : t.val < 25 := lt_of_lt_of_eq t.isLt N_2
  have h : t.val * 4000 + r.val < 100000 := by have := r.isLt; omega
  show k2_pay1 (iblk2 V c 0 t) (iblk2 V c 1 t) (ix2 r q)
    = dense40 (V c main_v43) (V c main_arg4) (((cfg2.win 2).blk t).view.emb (ix2 r q))
  rw [denseOutBlock40_emb t r q h]
  refine (blockDense40_apply _ _ r q).trans ?_
  refine ((dense40_apply _ _ ⟨t.val * 4000 + r.val, h⟩ q).trans ?_).symm
  refine Finset.sum_congr rfl fun k _ => ?_
  rw [denseLeftBlock40_apply V c t r k h, denseRightBlock40_apply V c t k q]

/-- An index of the result array is in point t's block iff each coordinate is in the block's range on its axis. -/
theorem mem_denseOutBlock40 (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v44).slice (win2_2.rect t)).set ↔ _
  rw [View.set_slice_whole, Rect.mem_set_unit]
  exact Iff.rfl

/-- Every index of the result array is in the block of some point, and every point writes back: row i lies in row
    block i / 4000. -/
theorem denseOutBlocks40_cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, e4, e5⟩ := denseRowBlocks40 t
  refine ⟨t, flush2_2 t, ?_⟩
  rw [mem_denseOutBlock40]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 40 ≤ (i 1).val ∧ (i 1).val < win2_2.index t (1 : Fin 2) * 40 + 40; omega

/-- After region 2 its output array is the whole dense product of its two input arrays. -/
theorem dense40_region (c : Dev nD) : (dat2 V c).arrAt 2 cfg2.N = dense40 (V c main_v43) (V c main_arg4) :=
  (dat2 V c).arrAt_eq_of_cover 2 (dense40 (V c main_v43) (V c main_arg4)) (fun t _ => dense40_flushed V c t)
    denseOutBlocks40_cover

end Cert.Gcn

end
-- ==== Proof.CombineRegions.lean ====
/-
  From blocks to arrays, for the two regions that combine an aggregate with the scaled features and the bias.

  Each region runs over 25 grid points; at point t its body reads block t (4000 rows) of the aggregate agg, of the
  features h and of the column s, and the one-row bias b, and stores, entry by entry,
  (agg(r, q) + h(r, q) · s(r, 0)) + b(0, q) (the layer of 64 features then takes the maximum with 0) into block t of the
  output. Row r of block t is row 4000 t + r of the array, so what point t writes back is block t of one whole-array
  function of the four input arrays; the 25 blocks tile the output's 100000 rows, every point writes back, and so the
  output array after the region is that function of the input arrays.
-/
import proofs.«131553_j5342939316803_1_alg».proof.Proof.Gen.KernelIdeal.Frame
import proofs.«131553_j5342939316803_1_alg».proof.Proof.Spec
import proofs.«131553_j5342939316803_1_alg».proof.Proof.LibPlainDot
import proofs.«131553_j5342939316803_1_alg».proof.Proof.LibHostRead
import proofs.«131553_j5342939316803_1_alg».proof.Proof.LibLayoutVsHost
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value

set_option maxRecDepth 16384

noncomputable section

namespace Cert.Gcn

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem combine_zero_offsets : (![0, 0] : Fin 2 → Nat) = fun _ => 0 := funext fun a => by fin_cases a <;> rfl

/-- A one-column array broadcast along n columns by the host, read at (r, t), is the column at (r, 0). -/
theorem combine_hostCol_apply {α : Type} {m n : ℕ} (hd : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hd y (ix2 r t) = y (ix2 r (0 : Fin 1)) := by
  refine broadcastInDim_apply ![0, 1] hd y (ix2 r t) (ix2 r (0 : Fin 1)) fun a => ?_
  match a with
  | ⟨0, _⟩ =>
    show r.val = if m = 1 then 0 else r.val
    split
    · have := r.isLt; omega
    · rfl
  | ⟨1, _⟩ => rfl

/-! ## The layer of 64 features: region 1 -/

/-- The block indices over the 25 grid points: the node-indexed windows (agg, h, s, the output) are at block (t, 0), the bias row at (0, 0). -/
theorem combine64_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, q) of what the body stores: max((agg(r, q) + h(r, q) · s(r, 0)) + b(0, q), 0) of its four blocks. -/
theorem combine64_payload_apply (s : Vec Ideal S4000x1 .f32) (b : Vec Ideal S1x64 .f32) (agg h : Vec Ideal S4000x64 .f32)
    (r : Fin 4000) (q : Fin 64) :
    k1_pay1 s b agg h (ix2 r q)
      = max ((agg (ix2 r q) + h (ix2 r q) * s (ix2 r (0 : Fin 1))) + b (ix2 (0 : Fin 1) q)) (Ideal.ofBits .f32 0x00000000#32) := by
  unfold k1_pay1
  simp only [shapeCast_self]
  rw [maximumf_apply, addf_apply, addf_apply, mulf_apply, broadcast_apply, Cert.Lib.broadcastTo_a1_ab_apply, broadcastTo_1b_ab_apply]
  rfl

/-- Entry (p, q) of the whole-array function: max((agg(p, q) + h(p, q) · s(p, 0)) + b(0, q), 0). -/
theorem relu64_combine64_apply (agg h : FVec Ideal S100000x64 .f32) (s : FVec Ideal S100000x1 .f32) (b : FVec Ideal S1x64 .f32)
    (p : Fin 100000) (q : Fin 64) :
    relu64 (combine64 agg h s b) (ix2 p q)
      = max ((agg (ix2 p q) + h (ix2 p q) * s (ix2 p (0 : Fin 1))) + b (ix2 (0 : Fin 1) q)) (Ideal.ofBits .f32 0x00000000#32) := by
  unfold relu64 combine64
  rw [maximumf_apply, addf_apply, addf_apply, mulf_apply, combine_hostCol_apply, broadcastInDim_oneRow_apply,
    broadcastInDim_scalar_apply, constant_apply]

/-- Window 0's block at point t read at (r, q) is the array agg at row 4000 t + r. -/
theorem combine64_agg_block_apply (c : Dev nD) (t : Fin cfg1.N) (r : Fin 4000) (q : Fin 64) (p : Fin 100000)
    (hp : p.val = 4000 * t.val + r.val) : iblk1 V c 0 t (ix2 r q) = V c main_v40 (ix2 p q) := by
  obtain ⟨e0, e1, -⟩ := combine64_block_index t
  show V c main_v40 (((cfg1.win 0).blk t).view.emb (ix2 r q)) = V c main_v40 (ix2 p q)
  congr 1
  funext a; apply Fin.ext
  match a with
  | ⟨0, _⟩ => show win1_0.index t (0 : Fin 2) * 4000 + 1 * r.val = p.val; omega
  | ⟨1, _⟩ => show win1_0.index t (1 : Fin 2) * 64 + 1 * q.val = q.val; omega

/-- Window 1's block at point t read at (r, q) is the array h at row 4000 t + r. -/
theorem combine64_h_block_apply (c : Dev nD) (t : Fin cfg1.N) (r : Fin 4000) (q : Fin 64) (p : Fin 100000)
    (hp : p.val = 4000 * t.val + r.val) : iblk1 V c 1 t (ix2 r q) = V c main_v27 (ix2 p q) := by
  obtain ⟨-, -, e0, e1, -⟩ := combine64_block_index t
  show V c main_v27 (((cfg1.win 1).blk t).view.emb (ix2 r q)) = V c main_v27 (ix2 p q)
  congr 1
  funext a; apply Fin.ext
  match a with
  | ⟨0, _⟩ => show win1_1.index t (0 : Fin 2) * 4000 + 1 * r.val = p.val; omega
  | ⟨1, _⟩ => show win1_1.index t (1 : Fin 2) * 64 + 1 * q.val = q.val; omega

/-- Window 2's block at point t read at (r, 0) is the column s at row 4000 t + r. -/
theorem combine64_s_block_apply (c : Dev nD) (t : Fin cfg1.N) (r : Fin 4000) (p : Fin 100000)
    (hp : p.val = 4000 * t.val + r.val) : iblk1 V c 2 t (ix2 r (0 : Fin 1)) = V c main_v41 (ix2 p (0 : Fin 1)) := by
  obtain ⟨-, -, -, -, e0, e1, -⟩ := combine64_block_index t
  show V c main_v41 (((cfg1.win 2).blk t).view.emb (ix2 r (0 : Fin 1))) = V c main_v41 (ix2 p (0 : Fin 1))
  congr 1
  funext a; apply Fin.ext
  match a with
  | ⟨0, _⟩ => show win1_2.index t (0 : Fin 2) * 4000 + 1 * r.val = p.val; omega
  | ⟨1, _⟩ => show win1_2.index t (1 : Fin 2) * 1 + 1 * 0 = 0; omega

/-- Window 3's block at any point read at (0, q) is the row b at (0, q). -/
theorem combine64_b_block_apply (c : Dev nD) (t : Fin cfg1.N) (q : Fin 64) :
    iblk1 V c 3 t (ix2 (0 : Fin 1) q) = V c main_v42 (ix2 (0 : Fin 1) q) := by
  obtain ⟨-, -, -, -, -, -, e0, e1, -⟩ := combine64_block_index t
  show V c main_v42 (((cfg1.win 3).blk t).view.emb (ix2 (0 : Fin 1) q)) = V c main_v42 (ix2 (0 : Fin 1) q)
  congr 1
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- What point t writes back is block t of the whole-array function of the region's four input arrays. -/
theorem combine64_flushed (c : Dev nD) (t : Fin cfg1.N) :
    (dat1 V c).flushed 4 t = ((cfg1.win 4).blk t).view.read (Elt Ideal)
      (relu64 (combine64 (V c main_v40) (V c main_v27) (V c main_v41) (V c main_v42))) := by
  show (cfg1.win 4).cut (grid1.coords t) ((dat1 V c).after 4 t) = _
  rw [after1_4]
  unfold out1_4
  rw [View.canon_unit_zero combine_zero_offsets]
  simp only [View.ld_unit_zero (S := S4000x64) combine_zero_offsets, View.ld_unit_zero (S := S4000x1) combine_zero_offsets, View.ld_unit_zero (S := S1x64) combine_zero_offsets]
  obtain ⟨-, -, -, -, -, -, -, -, e0, e1⟩ := combine64_block_index t
  funext j
  obtain ⟨r, q, rfl⟩ : ∃ (r : Fin 4000) (q : Fin 64), j = ix2 r q := ⟨j 0, j 1, eq_ix2 j⟩
  have ht : t.val < 25 := t.isLt
  have hr : r.val < 4000 := r.isLt
  have hp : 4000 * t.val + r.val < 100000 := by omega
  have hemb : ((cfg1.win 4).blk t).view.emb (ix2 r q) = ix2 (⟨4000 * t.val + r.val, hp⟩ : Fin 100000) q := by
    funext a; apply Fin.ext
    match a with
    | ⟨0, _⟩ => show win1_4.index t (0 : Fin 2) * 4000 + 1 * r.val = 4000 * t.val + r.val; omega
    | ⟨1, _⟩ => show win1_4.index t (1 : Fin 2) * 64 + 1 * q.val = q.val; omega
  show k1_pay1 (iblk1 V c 2 t) (iblk1 V c 3 t) (iblk1 V c 0 t) (iblk1 V c 1 t) (ix2 r q)
    = relu64 (combine64 (V c main_v40) (V c main_v27) (V c main_v41) (V c main_v42)) (((cfg1.win 4).blk t).view.emb (ix2 r q))
  rw [hemb]
  refine (combine64_payload_apply _ _ _ _ r q).trans ?_
  refine Eq.trans ?_ (relu64_combine64_apply _ _ _ _ ⟨4000 * t.val + r.val, hp⟩ q).symm
  rw [combine64_agg_block_apply V c t r q ⟨4000 * t.val + r.val, hp⟩ rfl, combine64_h_block_apply V c t r q ⟨4000 * t.val + r.val, hp⟩ rfl,
    combine64_s_block_apply V c t r ⟨4000 * t.val + r.val, hp⟩ rfl, combine64_b_block_apply V c t q]

/-- An index of the output array is in point t's block iff each coordinate is in the block's range on its axis. -/
theorem combine64_mem_block (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v43).slice (win1_4.rect t)).set ↔ _
  rw [View.set_slice_whole, Rect.mem_set_unit]
  exact Iff.rfl

/-- Every row of the output array lies in the block of the point row / 4000, and every point writes back. -/
theorem combine64_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := rfl
  refine ⟨⟨(i 0).val / 4000, by omega⟩, flush1_4 _, ?_⟩
  rw [combine64_mem_block]
  obtain ⟨-, -, -, -, -, -, -, -, e0, e1⟩ := combine64_block_index ⟨(i 0).val / 4000, by omega⟩
  intro a
  match a with
  | ⟨0, _⟩ =>
    show win1_4.index ⟨(i 0).val / 4000, _⟩ (0 : Fin 2) * 4000 ≤ (i 0).val
      ∧ (i 0).val < win1_4.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_4.index ⟨(i 0).val / 4000, _⟩ (1 : Fin 2) * 64 ≤ (i 1).val
      ∧ (i 1).val < win1_4.index ⟨(i 0).val / 4000, _⟩ (1 : Fin 2) * 64 + 64
    rw [e1]; omega

/-- After region 1 its output array is max((agg + h·s) + b, 0) of its four input arrays, as whole arrays. -/
theorem combine64_region (c : Dev nD) : (dat1 V c).arrAt 4 cfg1.N = relu64 (combine64 (V c main_v40) (V c main_v27) (V c main_v41) (V c main_v42)) :=
  (dat1 V c).arrAt_eq_of_cover 4 (relu64 (combine64 (V c main_v40) (V c main_v27) (V c main_v41) (V c main_v42)))
    (fun t _ => combine64_flushed V c t) combine64_cover

/-! ## The layer of 40 features: region 3 -/

/-- The block indices over the 25 grid points: the node-indexed windows (agg, h, s, the output) are at block (t, 0), the bias row at (0, 0). -/
theorem combine40_block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (r, q) of what the body stores: (agg(r, q) + h(r, q) · s(r, 0)) + b(0, q) of its four blocks. -/
theorem combine40_payload_apply (s : Vec Ideal S4000x1 .f32) (b : Vec Ideal S1x40 .f32) (agg h : Vec Ideal S4000x40 .f32)
    (r : Fin 4000) (q : Fin 40) :
    k3_pay1 s b agg h (ix2 r q) = (agg (ix2 r q) + h (ix2 r q) * s (ix2 r (0 : Fin 1))) + b (ix2 (0 : Fin 1) q) := by
  unfold k3_pay1
  simp only [shapeCast_self]
  rw [addf_apply, addf_apply, mulf_apply, Cert.Lib.broadcastTo_a1_ab_apply, broadcastTo_1b_ab_apply]

/-- Entry (p, q) of the whole-array function: (agg(p, q) + h(p, q) · s(p, 0)) + b(0, q). -/
theorem combine40_apply (agg h : FVec Ideal S100000x40 .f32) (s : FVec Ideal S100000x1 .f32) (b : FVec Ideal S1x40 .f32)
    (p : Fin 100000) (q : Fin 40) :
    combine40 agg h s b (ix2 p q) = (agg (ix2 p q) + h (ix2 p q) * s (ix2 p (0 : Fin 1))) + b (ix2 (0 : Fin 1) q) := by
  unfold combine40
  rw [addf_apply, addf_apply, mulf_apply, combine_hostCol_apply, broadcastInDim_oneRow_apply]

/-- Window 0's block at point t read at (r, q) is the array agg at row 4000 t + r. -/
theorem combine40_agg_block_apply (c : Dev nD) (t : Fin cfg3.N) (r : Fin 4000) (q : Fin 40) (p : Fin 100000)
    (hp : p.val = 4000 * t.val + r.val) : iblk3 V c 0 t (ix2 r q) = V c main_v57 (ix2 p q) := by
  obtain ⟨e0, e1, -⟩ := combine40_block_index t
  show V c main_v57 (((cfg3.win 0).blk t).view.emb (ix2 r q)) = V c main_v57 (ix2 p q)
  congr 1
  funext a; apply Fin.ext
  match a with
  | ⟨0, _⟩ => show win3_0.index t (0 : Fin 2) * 4000 + 1 * r.val = p.val; omega
  | ⟨1, _⟩ => show win3_0.index t (1 : Fin 2) * 40 + 1 * q.val = q.val; omega

/-- Window 1's block at point t read at (r, q) is the array h at row 4000 t + r. -/
theorem combine40_h_block_apply (c : Dev nD) (t : Fin cfg3.N) (r : Fin 4000) (q : Fin 40) (p : Fin 100000)
    (hp : p.val = 4000 * t.val + r.val) : iblk3 V c 1 t (ix2 r q) = V c main_v44 (ix2 p q) := by
  obtain ⟨-, -, e0, e1, -⟩ := combine40_block_index t
  show V c main_v44 (((cfg3.win 1).blk t).view.emb (ix2 r q)) = V c main_v44 (ix2 p q)
  congr 1
  funext a; apply Fin.ext
  match a with
  | ⟨0, _⟩ => show win3_1.index t (0 : Fin 2) * 4000 + 1 * r.val = p.val; omega
  | ⟨1, _⟩ => show win3_1.index t (1 : Fin 2) * 40 + 1 * q.val = q.val; omega

/-- Window 2's block at point t read at (r, 0) is the column s at row 4000 t + r. -/
theorem combine40_s_block_apply (c : Dev nD) (t : Fin cfg3.N) (r : Fin 4000) (p : Fin 100000)
    (hp : p.val = 4000 * t.val + r.val) : iblk3 V c 2 t (ix2 r (0 : Fin 1)) = V c main_v58 (ix2 p (0 : Fin 1)) := by
  obtain ⟨-, -, -, -, e0, e1, -⟩ := combine40_block_index t
  show V c main_v58 (((cfg3.win 2).blk t).view.emb (ix2 r (0 : Fin 1))) = V c main_v58 (ix2 p (0 : Fin 1))
  congr 1
  funext a; apply Fin.ext
  match a with
  | ⟨0, _⟩ => show win3_2.index t (0 : Fin 2) * 4000 + 1 * r.val = p.val; omega
  | ⟨1, _⟩ => show win3_2.index t (1 : Fin 2) * 1 + 1 * 0 = 0; omega

/-- Window 3's block at any point read at (0, q) is the row b at (0, q). -/
theorem combine40_b_block_apply (c : Dev nD) (t : Fin cfg3.N) (q : Fin 40) :
    iblk3 V c 3 t (ix2 (0 : Fin 1) q) = V c main_v59 (ix2 (0 : Fin 1) q) := by
  obtain ⟨-, -, -, -, -, -, e0, e1, -⟩ := combine40_block_index t
  show V c main_v59 (((cfg3.win 3).blk t).view.emb (ix2 (0 : Fin 1) q)) = V c main_v59 (ix2 (0 : Fin 1) q)
  congr 1
  funext a; apply Fin.ext
  match a with
  | ⟨0, _⟩ => show win3_3.index t (0 : Fin 2) * 1 + 1 * 0 = 0; omega
  | ⟨1, _⟩ => show win3_3.index t (1 : Fin 2) * 40 + 1 * q.val = q.val; omega

/-- What point t writes back is block t of the whole-array function of the region's four input arrays. -/
theorem combine40_flushed (c : Dev nD) (t : Fin cfg3.N) :
    (dat3 V c).flushed 4 t = ((cfg3.win 4).blk t).view.read (Elt Ideal)
      (combine40 (V c main_v57) (V c main_v44) (V c main_v58) (V c main_v59)) := by
  show (cfg3.win 4).cut (grid3.coords t) ((dat3 V c).after 4 t) = _
  rw [after3_4]
  unfold out3_4
  rw [View.canon_unit_zero combine_zero_offsets]
  simp only [View.ld_unit_zero (S := S4000x40) combine_zero_offsets, View.ld_unit_zero (S := S4000x1) combine_zero_offsets, View.ld_unit_zero (S := S1x40) combine_zero_offsets]
  obtain ⟨-, -, -, -, -, -, -, -, e0, e1⟩ := combine40_block_index t
  funext j
  obtain ⟨r, q, rfl⟩ : ∃ (r : Fin 4000) (q : Fin 40), j = ix2 r q := ⟨j 0, j 1, eq_ix2 j⟩
  have ht : t.val < 25 := t.isLt
  have hr : r.val < 4000 := r.isLt
  have hp : 4000 * t.val + r.val < 100000 := by omega
  have hemb : ((cfg3.win 4).blk t).view.emb (ix2 r q) = ix2 (⟨4000 * t.val + r.val, hp⟩ : Fin 100000) q := by
    funext a; apply Fin.ext
    match a with
    | ⟨0, _⟩ => show win3_4.index t (0 : Fin 2) * 4000 + 1 * r.val = 4000 * t.val + r.val; omega
    | ⟨1, _⟩ => show win3_4.index t (1 : Fin 2) * 40 + 1 * q.val = q.val; omega
  show k3_pay1 (iblk3 V c 2 t) (iblk3 V c 3 t) (iblk3 V c 0 t) (iblk3 V c 1 t) (ix2 r q)
    = combine40 (V c main_v57) (V c main_v44) (V c main_v58) (V c main_v59) (((cfg3.win 4).blk t).view.emb (ix2 r q))
  rw [hemb]
  refine (combine40_payload_apply _ _ _ _ r q).trans ?_
  refine Eq.trans ?_ (combine40_apply _ _ _ _ ⟨4000 * t.val + r.val, hp⟩ q).symm
  rw [combine40_agg_block_apply V c t r q ⟨4000 * t.val + r.val, hp⟩ rfl, combine40_h_block_apply V c t r q ⟨4000 * t.val + r.val, hp⟩ rfl,
    combine40_s_block_apply V c t r ⟨4000 * t.val + r.val, hp⟩ rfl, combine40_b_block_apply V c t q]

/-- An index of the output array is in point t's block iff each coordinate is in the block's range on its axis. -/
theorem combine40_mem_block (t : Fin cfg3.N) (i : S100000x40.Idx) :
    i ∈ ((cfg3.win 4).blk t).view.set ↔ ∀ a : Fin 2, win3_4.index t a * S4000x40.size a ≤ (i a).val
      ∧ (i a).val < win3_4.index t a * S4000x40.size a + S4000x40.size a := by
  show i ∈ ((View.whole main_v60).slice (win3_4.rect t)).set ↔ _
  rw [View.set_slice_whole, Rect.mem_set_unit]
  exact Iff.rfl

/-- Every row of the output array lies in the block of the point row / 4000, and every point writes back. -/
theorem combine40_cover (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have hN : cfg3.N = 25 := rfl
  refine ⟨⟨(i 0).val / 4000, by omega⟩, flush3_4 _, ?_⟩
  rw [combine40_mem_block]
  obtain ⟨-, -, -, -, -, -, -, -, e0, e1⟩ := combine40_block_index ⟨(i 0).val / 4000, by omega⟩
  intro a
  match a with
  | ⟨0, _⟩ =>
    show win3_4.index ⟨(i 0).val / 4000, _⟩ (0 : Fin 2) * 4000 ≤ (i 0).val
      ∧ (i 0).val < win3_4.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win3_4.index ⟨(i 0).val / 4000, _⟩ (1 : Fin 2) * 40 ≤ (i 1).val
      ∧ (i 1).val < win3_4.index ⟨(i 0).val / 4000, _⟩ (1 : Fin 2) * 40 + 40
    rw [e1]; omega

/-- After region 3 its output array is (agg + h·s) + b of its four input arrays, as whole arrays. -/
theorem combine40_region (c : Dev nD) : (dat3 V c).arrAt 4 cfg3.N = combine40 (V c main_v57) (V c main_v44) (V c main_v58) (V c main_v59) :=
  (dat3 V c).arrAt_eq_of_cover 4 (combine40 (V c main_v57) (V c main_v44) (V c main_v58) (V c main_v59))
    (fun t _ => combine40_flushed V c t) combine40_cover

end Cert.Gcn

end
-- ==== Proof.Fold.lean ====
/-
  The fold through the kernel program's segments, read: what each boundary between a host stretch and a region holds, as
  the network's functions (Spec) of the launch contents of the six inputs.

  The first host stretch leaves the edge rows src and dst, dinv, the edge weights and the self-loop weights; region 0
  leaves h = x · W₁; the second stretch gathers h along the edges, weighs it and sums it by destination, and lays the
  self-loop weights out as a column and the bias as a row; region 1 combines them and takes the maximum with zero;
  region 2 is the second dense product; the third stretch aggregates it; region 3 combines without the maximum. Each
  boundary's contents at a buffer the segment before it does not write are the contents one boundary earlier.
-/
import proofs.«131553_j5342939316803_1_alg».proof.Proof.Gen.KernelIdeal.Frame
import proofs.«131553_j5342939316803_1_alg».proof.Proof.Spec
import proofs.«131553_j5342939316803_1_alg».proof.Proof.LibLayoutVsHost
import proofs.«131553_j5342939316803_1_alg».proof.Proof.DenseRegions
import proofs.«131553_j5342939316803_1_alg».proof.Proof.CombineRegions
import Idealize.ShloMosaic.Lib.StableHlo.Run

set_option maxRecDepth 16384

noncomputable section

namespace Cert.Gcn

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## After the first host stretch (region 0's entry) -/

theorem at1_src (c : Dev nD) : W1 m ρ c (Proc.devRef .tc main_v1) = src (m ((c.tc : Thread nD τ).loc main_arg1)) := by
  show StableHlo.after hostOps0 (W0 m ρ c) (Proc.devRef .tc main_v1) = _
  after_results_simp
  rfl

theorem at1_dst (c : Dev nD) : W1 m ρ c (Proc.devRef .tc main_v3) = dst (m ((c.tc : Thread nD τ).loc main_arg1)) := by
  show StableHlo.after hostOps0 (W0 m ρ c) (Proc.devRef .tc main_v3) = _
  after_results_simp
  rfl

theorem at1_norm (c : Dev nD) : W1 m ρ c (Proc.devRef .tc main_v25) = norm (m ((c.tc : Thread nD τ).loc main_arg1)) := by
  show StableHlo.after hostOps0 (W0 m ρ c) (Proc.devRef .tc main_v25) = _
  after_results_simp
  rfl

theorem at1_selfScale (c : Dev nD) : W1 m ρ c (Proc.devRef .tc main_v26) = selfScale (m ((c.tc : Thread nD τ).loc main_arg1)) := by
  show StableHlo.after hostOps0 (W0 m ρ c) (Proc.devRef .tc main_v26) = _
  after_results_simp
  rfl

theorem at1_arg0 (c : Dev nD) : W1 m ρ c (Proc.devRef .tc main_arg0) = (m ((c.tc : Thread nD τ).loc main_arg0)) := by
  show StableHlo.after hostOps0 (W0 m ρ c) (Proc.devRef .tc main_arg0) = _
  after_results_simp

theorem at1_arg2 (c : Dev nD) : W1 m ρ c (Proc.devRef .tc main_arg2) = (m ((c.tc : Thread nD τ).loc main_arg2)) := by
  show StableHlo.after hostOps0 (W0 m ρ c) (Proc.devRef .tc main_arg2) = _
  after_results_simp

theorem at1_arg3 (c : Dev nD) : W1 m ρ c (Proc.devRef .tc main_arg3) = (m ((c.tc : Thread nD τ).loc main_arg3)) := by
  show StableHlo.after hostOps0 (W0 m ρ c) (Proc.devRef .tc main_arg3) = _
  after_results_simp

theorem at1_arg4 (c : Dev nD) : W1 m ρ c (Proc.devRef .tc main_arg4) = (m ((c.tc : Thread nD τ).loc main_arg4)) := by
  show StableHlo.after hostOps0 (W0 m ρ c) (Proc.devRef .tc main_arg4) = _
  after_results_simp

theorem at1_arg5 (c : Dev nD) : W1 m ρ c (Proc.devRef .tc main_arg5) = (m ((c.tc : Thread nD τ).loc main_arg5)) := by
  show StableHlo.after hostOps0 (W0 m ρ c) (Proc.devRef .tc main_arg5) = _
  after_results_simp

/-! ## After region 0: h = x · W₁ -/

theorem at2_h (c : Dev nD) : W2 m ρ c (Proc.devRef .tc main_v27) = dense64 (m ((c.tc : Thread nD τ).loc main_arg0)) (m ((c.tc : Thread nD τ).loc main_arg2)) := by
  refine (W2_arr m ρ c 2).trans ((dense64_region (V1 m ρ) c).trans ?_)
  show dense64 (W1 m ρ c (Proc.devRef .tc main_arg0)) (W1 m ρ c (Proc.devRef .tc main_arg2)) = _
  rw [at1_arg0, at1_arg2]

theorem at2_src (c : Dev nD) : W2 m ρ c (Proc.devRef .tc main_v1) = src (m ((c.tc : Thread nD τ).loc main_arg1)) :=
  (W2_of_ne m ρ c main_v1 (by decide)).trans (at1_src m ρ c)

theorem at2_dst (c : Dev nD) : W2 m ρ c (Proc.devRef .tc main_v3) = dst (m ((c.tc : Thread nD τ).loc main_arg1)) :=
  (W2_of_ne m ρ c main_v3 (by decide)).trans (at1_dst m ρ c)

theorem at2_norm (c : Dev nD) : W2 m ρ c (Proc.devRef .tc main_v25) = norm (m ((c.tc : Thread nD τ).loc main_arg1)) :=
  (W2_of_ne m ρ c main_v25 (by decide)).trans (at1_norm m ρ c)

theorem at2_selfScale (c : Dev nD) : W2 m ρ c (Proc.devRef .tc main_v26) = selfScale (m ((c.tc : Thread nD τ).loc main_arg1)) :=
  (W2_of_ne m ρ c main_v26 (by decide)).trans (at1_selfScale m ρ c)

theorem at2_arg3 (c : Dev nD) : W2 m ρ c (Proc.devRef .tc main_arg3) = (m ((c.tc : Thread nD τ).loc main_arg3)) :=
  (W2_of_ne m ρ c main_arg3 (by decide)).trans (at1_arg3 m ρ c)

theorem at2_arg4 (c : Dev nD) : W2 m ρ c (Proc.devRef .tc main_arg4) = (m ((c.tc : Thread nD τ).loc main_arg4)) :=
  (W2_of_ne m ρ c main_arg4 (by decide)).trans (at1_arg4 m ρ c)

theorem at2_arg5 (c : Dev nD) : W2 m ρ c (Proc.devRef .tc main_arg5) = (m ((c.tc : Thread nD τ).loc main_arg5)) :=
  (W2_of_ne m ρ c main_arg5 (by decide)).trans (at1_arg5 m ρ c)

/-! ## After the second host stretch (region 1's entry) -/

theorem at3_agg (c : Dev nD) : W3 m ρ c (Proc.devRef .tc main_v40) = aggregate64 (m ((c.tc : Thread nD τ).loc main_arg1)) (dense64 (m ((c.tc : Thread nD τ).loc main_arg0)) (m ((c.tc : Thread nD τ).loc main_arg2))) := by
  show StableHlo.after hostOps1 (W2 m ρ c) (Proc.devRef .tc main_v40) = _
  after_results_simp
  rw [at2_h, at2_src, at2_dst, at2_norm]
  rfl

theorem at3_h (c : Dev nD) : W3 m ρ c (Proc.devRef .tc main_v27) = dense64 (m ((c.tc : Thread nD τ).loc main_arg0)) (m ((c.tc : Thread nD τ).loc main_arg2)) := by
  show StableHlo.after hostOps1 (W2 m ρ c) (Proc.devRef .tc main_v27) = _
  after_results_simp
  exact at2_h m ρ c

/-- The self-loop weights recast as a column are the host's broadcast of them along the rows. -/
theorem at3_scaleCol (c : Dev nD) : W3 m ρ c (Proc.devRef .tc main_v41) = col (selfScale (m ((c.tc : Thread nD τ).loc main_arg1))) := by
  show StableHlo.after hostOps1 (W2 m ρ c) (Proc.devRef .tc main_v41) = _
  after_results_simp
  rw [at2_selfScale]
  exact Cert.LibLayout.shapeCast_col_eq _ _ _

/-- The bias recast as a row is the host's broadcast of it along the columns. -/
theorem at3_biasRow (c : Dev nD) : W3 m ρ c (Proc.devRef .tc main_v42) = row64 (m ((c.tc : Thread nD τ).loc main_arg3)) := by
  show StableHlo.after hostOps1 (W2 m ρ c) (Proc.devRef .tc main_v42) = _
  after_results_simp
  rw [at2_arg3]
  exact Cert.LibLayout.shapeCast_row_eq _ _ _

theorem at3_src (c : Dev nD) : W3 m ρ c (Proc.devRef .tc main_v1) = src (m ((c.tc : Thread nD τ).loc main_arg1)) := by
  show StableHlo.after hostOps1 (W2 m ρ c) (Proc.devRef .tc main_v1) = _
  after_results_simp
  exact at2_src m ρ c

theorem at3_dst (c : Dev nD) : W3 m ρ c (Proc.devRef .tc main_v3) = dst (m ((c.tc : Thread nD τ).loc main_arg1)) := by
  show StableHlo.after hostOps1 (W2 m ρ c) (Proc.devRef .tc main_v3) = _
  after_results_simp
  exact at2_dst m ρ c

theorem at3_norm (c : Dev nD) : W3 m ρ c (Proc.devRef .tc main_v25) = norm (m ((c.tc : Thread nD τ).loc main_arg1)) := by
  show StableHlo.after hostOps1 (W2 m ρ c) (Proc.devRef .tc main_v25) = _
  after_results_simp
  exact at2_norm m ρ c

theorem at3_selfScale (c : Dev nD) : W3 m ρ c (Proc.devRef .tc main_v26) = selfScale (m ((c.tc : Thread nD τ).loc main_arg1)) := by
  show StableHlo.after hostOps1 (W2 m ρ c) (Proc.devRef .tc main_v26) = _
  after_results_simp
  exact at2_selfScale m ρ c

theorem at3_arg4 (c : Dev nD) : W3 m ρ c (Proc.devRef .tc main_arg4) = (m ((c.tc : Thread nD τ).loc main_arg4)) := by
  show StableHlo.after hostOps1 (W2 m ρ c) (Proc.devRef .tc main_arg4) = _
  after_results_simp
  exact at2_arg4 m ρ c

theorem at3_arg5 (c : Dev nD) : W3 m ρ c (Proc.devRef .tc main_arg5) = (m ((c.tc : Thread nD τ).loc main_arg5)) := by
  show StableHlo.after hostOps1 (W2 m ρ c) (Proc.devRef .tc main_arg5) = _
  after_results_simp
  exact at2_arg5 m ρ c

/-! ## After region 1: the first layer -/

theorem at4_layer1 (c : Dev nD) : W4 m ρ c (Proc.devRef .tc main_v43) = layer1 (m ((c.tc : Thread nD τ).loc main_arg1)) (m ((c.tc : Thread nD τ).loc main_arg0)) (m ((c.tc : Thread nD τ).loc main_arg2)) (m ((c.tc : Thread nD τ).loc main_arg3)) := by
  refine (W4_arr m ρ c 4).trans ((combine64_region (V3 m ρ) c).trans ?_)
  show relu64 (combine64 (W3 m ρ c (Proc.devRef .tc main_v40)) (W3 m ρ c (Proc.devRef .tc main_v27)) (W3 m ρ c (Proc.devRef .tc main_v41)) (W3 m ρ c (Proc.devRef .tc main_v42))) = _
  rw [at3_agg, at3_h, at3_scaleCol, at3_biasRow]
  rfl

theorem at4_src (c : Dev nD) : W4 m ρ c (Proc.devRef .tc main_v1) = src (m ((c.tc : Thread nD τ).loc main_arg1)) :=
  (W4_of_ne m ρ c main_v1 (by decide)).trans (at3_src m ρ c)

theorem at4_dst (c : Dev nD) : W4 m ρ c (Proc.devRef .tc main_v3) = dst (m ((c.tc : Thread nD τ).loc main_arg1)) :=
  (W4_of_ne m ρ c main_v3 (by decide)).trans (at3_dst m ρ c)

theorem at4_norm (c : Dev nD) : W4 m ρ c (Proc.devRef .tc main_v25) = norm (m ((c.tc : Thread nD τ).loc main_arg1)) :=
  (W4_of_ne m ρ c main_v25 (by decide)).trans (at3_norm m ρ c)

theorem at4_selfScale (c : Dev nD) : W4 m ρ c (Proc.devRef .tc main_v26) = selfScale (m ((c.tc : Thread nD τ).loc main_arg1)) :=
  (W4_of_ne m ρ c main_v26 (by decide)).trans (at3_selfScale m ρ c)

theorem at4_arg4 (c : Dev nD) : W4 m ρ c (Proc.devRef .tc main_arg4) = (m ((c.tc : Thread nD τ).loc main_arg4)) :=
  (W4_of_ne m ρ c main_arg4 (by decide)).trans (at3_arg4 m ρ c)

theorem at4_arg5 (c : Dev nD) : W4 m ρ c (Proc.devRef .tc main_arg5) = (m ((c.tc : Thread nD τ).loc main_arg5)) :=
  (W4_of_ne m ρ c main_arg5 (by decide)).trans (at3_arg5 m ρ c)

/-! ## After region 2: h₂ = layer1 · W₂ -/

theorem at5_h2 (c : Dev nD) : W5 m ρ c (Proc.devRef .tc main_v44) = dense40 (layer1 (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) := by
  refine (W5_arr m ρ c 2).trans ((dense40_region (V4 m ρ) c).trans ?_)
  show dense40 (W4 m ρ c (Proc.devRef .tc main_v43)) (W4 m ρ c (Proc.devRef .tc main_arg4)) = _
  rw [at4_layer1, at4_arg4]

theorem at5_src (c : Dev nD) : W5 m ρ c (Proc.devRef .tc main_v1) = src (m ((c.tc : Thread nD τ).loc main_arg1)) :=
  (W5_of_ne m ρ c main_v1 (by decide)).trans (at4_src m ρ c)

theorem at5_dst (c : Dev nD) : W5 m ρ c (Proc.devRef .tc main_v3) = dst (m ((c.tc : Thread nD τ).loc main_arg1)) :=
  (W5_of_ne m ρ c main_v3 (by decide)).trans (at4_dst m ρ c)

theorem at5_norm (c : Dev nD) : W5 m ρ c (Proc.devRef .tc main_v25) = norm (m ((c.tc : Thread nD τ).loc main_arg1)) :=
  (W5_of_ne m ρ c main_v25 (by decide)).trans (at4_norm m ρ c)

theorem at5_selfScale (c : Dev nD) : W5 m ρ c (Proc.devRef .tc main_v26) = selfScale (m ((c.tc : Thread nD τ).loc main_arg1)) :=
  (W5_of_ne m ρ c main_v26 (by decide)).trans (at4_selfScale m ρ c)

theorem at5_arg5 (c : Dev nD) : W5 m ρ c (Proc.devRef .tc main_arg5) = (m ((c.tc : Thread nD τ).loc main_arg5)) :=
  (W5_of_ne m ρ c main_arg5 (by decide)).trans (at4_arg5 m ρ c)

/-! ## After the third host stretch (region 3's entry) -/

theorem at6_agg (c : Dev nD) : W6 m ρ c (Proc.devRef .tc main_v57) = aggregate40 (m ((c.tc : Thread nD τ).loc main_arg1)) (dense40 (layer1 (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4))) := by
  show StableHlo.after hostOps3 (W5 m ρ c) (Proc.devRef .tc main_v57) = _
  after_results_simp
  rw [at5_h2, at5_src, at5_dst, at5_norm]
  rfl

theorem at6_h2 (c : Dev nD) : W6 m ρ c (Proc.devRef .tc main_v44) = dense40 (layer1 (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) := by
  show StableHlo.after hostOps3 (W5 m ρ c) (Proc.devRef .tc main_v44) = _
  after_results_simp
  exact at5_h2 m ρ c

theorem at6_scaleCol (c : Dev nD) : W6 m ρ c (Proc.devRef .tc main_v58) = col (selfScale (m ((c.tc : Thread nD τ).loc main_arg1))) := by
  show StableHlo.after hostOps3 (W5 m ρ c) (Proc.devRef .tc main_v58) = _
  after_results_simp
  rw [at5_selfScale]
  exact Cert.LibLayout.shapeCast_col_eq _ _ _

theorem at6_biasRow (c : Dev nD) : W6 m ρ c (Proc.devRef .tc main_v59) = row40 (m ((c.tc : Thread nD τ).loc main_arg5)) := by
  show StableHlo.after hostOps3 (W5 m ρ c) (Proc.devRef .tc main_v59) = _
  after_results_simp
  rw [at5_arg5]
  exact Cert.LibLayout.shapeCast_row_eq _ _ _

/-! ## After region 3: the network -/

/-- What the last boundary holds in the result array is the network of the launch contents of the six inputs. -/
theorem at7_result (c : Dev nD) :
    W7 m ρ c (Proc.devRef .tc main_v60) = network (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  refine (W7_arr m ρ c 4).trans ((combine40_region (V6 m ρ) c).trans ?_)
  show combine40 (W6 m ρ c (Proc.devRef .tc main_v57)) (W6 m ρ c (Proc.devRef .tc main_v44)) (W6 m ρ c (Proc.devRef .tc main_v58)) (W6 m ρ c (Proc.devRef .tc main_v59)) = _
  rw [at6_agg, at6_h2, at6_scaleCol, at6_biasRow]
  rfl

end Cert.Gcn

end
-- ==== Proof.RefValue.lean ====
/-
  The reference's result is the network of the specification: its one composed term of the six inputs, with the
  specification's named stages unfolded, is that term.
-/
import proofs.«131553_j5342939316803_1_alg».proof.Proof.Gen.ReferenceIdeal.Run
import proofs.«131553_j5342939316803_1_alg».proof.Proof.Spec

set_option maxRecDepth 16384

noncomputable section

namespace Cert.Gcn

open Cert.ReferenceIdeal Cert.ReferenceIdeal.Gen Idealize.ShloMosaic Idealize.ShloMosaic.TcCoe Idealize.SL.Sem

/-- What the reference's run leaves in its result array is the network applied to the launch contents of the inputs. -/
theorem reference_result (m : (ℓ : Loc nD τ sig) → Buf (Elt Ideal) ℓ) (c : Dev nD) :
    Cert.ReferenceIdeal.Value.res_main_v92 (F := Ideal) m c
      = network (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v92 network layer1 relu64 combine64 combine40 aggregate64 aggregate40 dense64 dense40
    row64 row40 col selfScale norm dinv wrap src dst
  rfl

end Cert.Gcn

end
-- ==== Proof.lean ====
/-
  Two programs for one two-layer graph convolution over 100000 nodes and 1600000 edges, equal on the extended reals.

  The kernel program computes, on the host, the edge rows, dinv = deg^(-1/2), the edge weights and the self-loop
  weights once; then each layer's dense product in a region of 25 row blocks (its casts to a narrower float the identity
  here), the gather along the edges, the weighting and the sum by destination on the host, and the combination
  (agg + h · dinv²) + b, with max(·, 0) after the first layer only, in a second region of 25 row blocks. The reference
  computes the same stages as whole arrays, the degree quantities once per layer.

  The three frames are the generated ones (the reference's is its generated run with the result dropped). The value
  claim sets two runs side by side: the kernel program's launch with its result array named at the last boundary of the
  fold through its segments (KLaunch), read back boundary by boundary to the network of the specification (Fold, over
  the four regions' whole-array values: DenseRegions, CombineRegions), and the reference's generated run, whose one
  composed term is that same network (RefValue). The inputs agree, so the two results are one array. No rewrite was
  applied when the kernel was idealized, so that claim is empty.
-/
import proofs.«131553_j5342939316803_1_alg».proof.Defs
import proofs.«131553_j5342939316803_1_alg».proof.Proof.Gen.Kernel
import proofs.«131553_j5342939316803_1_alg».proof.Proof.Gen.Kernel.Frame
import proofs.«131553_j5342939316803_1_alg».proof.Proof.Gen.KernelIdeal
import proofs.«131553_j5342939316803_1_alg».proof.Proof.Gen.KernelIdeal.Frame
import proofs.«131553_j5342939316803_1_alg».proof.Proof.Gen.ReferenceIdeal
import proofs.«131553_j5342939316803_1_alg».proof.Proof.Gen.ReferenceIdeal.Run
import proofs.«131553_j5342939316803_1_alg».proof.Proof.Gen.Pre_finite_inputs
import proofs.«131553_j5342939316803_1_alg».proof.Proof.KLaunch
import proofs.«131553_j5342939316803_1_alg».proof.Proof.Fold
import proofs.«131553_j5342939316803_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six inputs both programs end with the network of those inputs in their result. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.at7_result m ρ c), (h c).2⟩)
      (Cert.KernelIdeal.Launched.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.reference_result, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
